-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x512 : Shape := ⟨3, ![4096, 128, 512]⟩
abbrev S_ : Shape := ⟨0, ![]⟩

class Facts : Prop where
  bcast_S_S4096x128x512 : S_.BroadcastsInDim S4096x128x512 (![] : Fin 0 → Fin S4096x128x512.rank)
  reducesTo_S4096x128x512_S_d0_1_2 : S4096x128x512.ReducesTo [0, 1, 2] S_
  h_S_ : 0 < S_.numel

variable [Facts]

def fn {F : FTy → Type} [FloatOps F] (main_arg0 : FVec F S4096x128x512 .f32) : IVec S_ 1 :=
  let main_v0 : FVec F S4096x128x512 .f32 := Host.absf main_arg0
  let main_cst : FVec F S_ .f32 := constant S_ .f32 0x7F800000#32
  let main_v1 : FVec F S4096x128x512 .f32 := broadcastInDim S4096x128x512 ![] bcast_S_S4096x128x512 main_cst
  let main_v2 : IVec S4096x128x512 1 := cmpf .olt main_v0 main_v1
  let main_c : IVec S_ 1 := constantI S_ 1 1#1
  let main_v3 : IVec S_ 1 := (fun x v => Host.reduce IntOp.andi x v reducesTo_S4096x128x512_S_d0_1_2 h_S_) main_v2 main_c
  main_v3
-- ==== Kernel.lean ====
abbrev S4096x128x512 : Shape := ⟨3, ![4096, 128, 512]⟩
abbrev S4096x512 : Shape := ⟨2, ![4096, 512]⟩
abbrev S64x128x512 : Shape := ⟨3, ![64, 128, 512]⟩
abbrev S64x512 : Shape := ⟨2, ![64, 512]⟩

abbrev nBuf : Space → Nat
  | .hbm => 2
  | .vmem => 4
  | .smem => 0
  | _ => 0

abbrev bufTy : (tb : Table) → Fin (tcTables nBuf tb) → BufTy
  | .hbm, ⟨0, _⟩ => ⟨S4096x128x512, .f32⟩
  | .hbm, ⟨1, _⟩ => ⟨S4096x512, .f32⟩
  | .local _ .vmem, ⟨0, _⟩ => ⟨S64x128x512, .f32⟩
  | .local _ .vmem, ⟨1, _⟩ => ⟨S64x128x512, .f32⟩
  | .local _ .vmem, ⟨2, _⟩ => ⟨S64x512, .f32⟩
  | .local _ .vmem, ⟨3, _⟩ => ⟨S64x512, .f32⟩
  | _, _ => ⟨S4096x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x128x512_S64x128x512_0_0_0 : ∀ a, (![0, 0, 0] : Fin 3 → Nat) a + S64x128x512.size a ≤ S64x128x512.size a
  h_S64x128x512 : 0 < S64x128x512.numel
  reduces_S64x128x512_S64x512 : S64x128x512.Reduces [1] S64x512
  inb_S64x512_S64x512_0_0 : ∀ a, (![0, 0] : Fin 2 → Nat) a + S64x512.size a ≤ S64x512.size a
  h_S64x512 : 0 < S64x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x512.size a ≤ S4096x128x512.size a
  hwx0_0 : ∀ i : grid0.Coords, EltTy.bits .f32 = 32 ∨ (Rect.block (s := S4096x128x512) S64x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S4096x512.size a
  hwx0_1 : ∀ i : grid0.Coords, EltTy.bits .f32 = 32 ∨ (Rect.block (s := S4096x512) S64x512.size (cc0_transform_1 i) (hinb0_1 i)).WholeWords (EltTy.packing .f32)

variable [Facts₀]

abbrev win0_0 : Pipeline.Window sig grid0 :=
  Pipeline.Window.ofSpec (Memref.whole main_arg0) S64x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x128x512 : Shape := ⟨3, ![4096, 128, 512]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x128x512, .f32⟩
  | .hbm, ⟨1, _⟩ => ⟨S_, .f32⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S4096x512, .f32⟩
  | _, _ => ⟨S4096x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S4096x128x512_S4096x512_d1 : S4096x128x512.ReducesTo [1] S4096x512
  h_S_ : 0 < S_.numel
  bcast_S_S4096x512 : S_.BroadcastsInDim S4096x512 (![] : Fin 0 → Fin S4096x512.rank)

variable [Facts₀]

class Facts : Prop extends Facts₀ where

variable [Facts]
-- ==== Proof.MeanSpec.lean ====
/-
  Bag-of-words mean pooling, as mathematics.

  The input is an array `x` of `B` sentences, each of 128 words, each word a vector of 512 coordinates. The pooled
  result at sentence `b` and coordinate `d` is the sum over the 128 words `s` of `x[b, s, d]`, divided by the value of the
  f32 word `0x43000000` (the float 128; its value is never needed here, because both programs divide by that same word).

  On the extended reals a finite sum is one number whatever the order or grouping of its terms, so a reduction of a
  block of 64 sentences along the word axis and a reduction of the whole array along the word axis read the same sums; no
  finiteness of the input is used anywhere.

  This file states the function once, for any number of sentences (`sentenceMean`), reads a one-axis sum reduction
  followed by the division at an index as that function (`reduce_div_eq`), and says that the function at a sentence only looks at
  that sentence's entries (`sentenceMean_congr`).
-/
import Idealize.ShloMosaic.PureOps.Ideal
import Idealize.ShloMosaic.PureOps.Ideal.Laws
import Idealize.ShloMosaic.Lib.ValueIdx

noncomputable section

open scoped BigOperators

namespace Cert.MeanPool

open Idealize.ShloMosaic Idealize.ShloMosaic.ValueIdx

/-- Word `s` of the sentence `i 0`, at the coordinate `i 1`: the entry of the rank-3 array that the pooled entry `i` sums over. -/
abbrev wordAt {B : Nat} (i : (⟨2, ![B, 512]⟩ : Shape).Idx) (s : Fin 128) : (⟨3, ![B, 128, 512]⟩ : Shape).Idx :=
  ix3 (n0 := B) (n1 := 128) (n2 := 512) ⟨(i 0).val, (i 0).isLt⟩ s ⟨(i 1).val, (i 1).isLt⟩

/-- THE SPECIFICATION: the mean over the word axis, entry by entry — the sum of the sentence's 128 words at the
    coordinate, divided by the value of the word for 128. -/
def sentenceMean {B : Nat} (x : (⟨3, ![B, 128, 512]⟩ : Shape).Idx → EReal) : (⟨2, ![B, 512]⟩ : Shape).Idx → EReal :=
  fun i => Ideal.div (∑ s : Fin 128, x (wordAt i s)) (Ideal.ofBits .f32 0x43000000#32)

/-- Two arrays (of possibly different numbers of sentences) that agree on the 128 words a pooled entry sums have the
    same pooled entry there. -/
theorem sentenceMean_congr {B B' : Nat} (x : (⟨3, ![B, 128, 512]⟩ : Shape).Idx → EReal)
    (x' : (⟨3, ![B', 128, 512]⟩ : Shape).Idx → EReal) (i : (⟨2, ![B, 512]⟩ : Shape).Idx) (i' : (⟨2, ![B', 512]⟩ : Shape).Idx)
    (h : ∀ s : Fin 128, x (wordAt i s) = x' (wordAt i' s)) : sentenceMean x i = sentenceMean x' i' := by
  unfold sentenceMean
  exact congrArg (fun z => Ideal.div z _) (Finset.sum_congr rfl fun s _ => h s)

/-- A sum reduction of a `[B, 128, 512]` vector along its word axis into the zero accumulator, then the division by the splat
    of the word for 128, read at an index: the specification. (The reduction at an index is the plain sum over the axis's
    128 coordinates, the accumulator being the sum's neutral element.) -/
theorem reduce_div_eq {B : Nat} (P : FVec Ideal ⟨3, ![B, 128, 512]⟩ .f32)
    (h : Shape.Reduces ⟨3, ![B, 128, 512]⟩ [1] ⟨2, ![B, 512]⟩) (hφ : FKind.Formats .f32)
    (hacc : (0x00000000#32 : BitVec 32) = FKind.add.neutral .f32 hφ) (y : (⟨2, ![B, 512]⟩ : Shape).Idx) :
    FloatOps.divf (multiReduction .add [1] ⟨2, ![B, 512]⟩ P 0x00000000#32 h hφ hacc y) (Scalar.ofBits (F := Ideal) .f32 0x43000000#32)
      = sentenceMean P y := by
  unfold sentenceMean
  refine congrArg (fun z => Ideal.div z (Ideal.ofBits .f32 0x43000000#32)) ?_
  refine (Ideal.multiReduction_add_single P 0x00000000#32 h hφ hacc y).trans ?_
  refine Finset.sum_congr rfl fun s _ => congrArg P (funext fun a => Fin.ext ?_)
  match a with
  | ⟨0, _⟩ => rfl
  | ⟨1, _⟩ => rfl
  | ⟨2, _⟩ => rfl

end Cert.MeanPool

end
-- ==== Proof.MeanKernel.lean ====
/-
  The idealized kernel's result array, as one function of its argument.

  The grid has 64 points. Point `t` fetches sentences `64·t … 64·t + 63` of the argument (all 128 words, all 512
  coordinates), reduces that block along the word axis, divides by the splat of the word for 128, and writes the result back as
  rows `64·t … 64·t + 63` of the output. Because the pooled entry of a sentence looks only at that sentence, what point `t`
  writes back is block `t` of the specification `sentenceMean` of the WHOLE argument; the 64 row blocks tile the 4096 rows, so the
  output array ends holding `sentenceMean` of the argument.
-/
import proofs.«123703_j42855183679779_1_alg».proof.Proof.Gen.KernelIdeal.Value
import proofs.«123703_j42855183679779_1_alg».proof.Proof.MeanSpec
import Idealize.ShloMosaic.Lib.Pipeline.Value

noncomputable section

open Idealize.ShloMosaic Idealize.ShloMosaic.TcCoe Idealize.SL.Sem
open Idealize.ShloMosaic.Pipeline (Dat)

namespace Cert.KernelIdeal.Pooled

open Cert.KernelIdeal Cert.KernelIdeal.Gen Cert.KernelIdeal.Value Cert.MeanPool

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The body's arithmetic on a block of 64 sentences, read at an entry of the block: the specification of that block. -/
theorem body_apply (P : Vec Ideal S64x128x512 .f32) (y : S64x512.Idx) :
    k0_pay1 (F := Ideal) P y = sentenceMean (B := 64) P y :=
  reduce_div_eq (B := 64) P reduces_S64x128x512_S64x512 (.inl rfl) rfl y

/-- Where the two windows' blocks sit at grid point `t`: both at sentence block `t`, and at block 0 of every other axis
    (decided over the 64 points). -/
theorem block_at : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- WHAT POINT `t` WRITES BACK is block `t` of the pooled argument: entry `j` of the body's result sums the words of sentence
    `j 0` of the fetched block, which is sentence `64·t + j 0` of the argument, the sentence entry `j` of the output block
    belongs to. -/
theorem flushed_eq (c : Dev nD) (t : Fin cfg0.N) :
    (dats m 0 c).flushed 1 t
      = ((cfg0.win 1).blk t).view.read (Elt Ideal) (sentenceMean (B := 4096) (V m c main_arg0)) := by
  rw [flushed1]
  unfold out0_1
  rw [View.canon_unit_zero zero2]
  simp only [View.ld_unit_zero (S := S64x128x512) zero3]
  obtain ⟨e0, e1, e2, e3, e4⟩ := block_at t
  funext j
  show k0_pay1 (F := Ideal) (iblk m c 0 t) j
    = sentenceMean (B := 4096) (V m c main_arg0) (((cfg0.win 1).blk t).view.emb j)
  refine (body_apply (iblk m c 0 t) j).trans ?_
  refine sentenceMean_congr (B := 64) (B' := 4096) (iblk m c 0 t) (V m c main_arg0) j _ fun s => ?_
  show V m c main_arg0 (((cfg0.win 0).blk t).view.emb (wordAt (B := 64) j s))
    = V m c main_arg0 (wordAt (B := 4096) (((cfg0.win 1).blk t).view.emb j) s)
  refine congrArg (V m c main_arg0) (funext fun a => Fin.ext ?_)
  have hj0 : (j 0).val < 64 := (j 0).isLt
  have hj1 : (j 1).val < 512 := (j 1).isLt
  match a with
  | ⟨0, _⟩ =>
    show win0_0.index t (0 : Fin 3) * 64 + 1 * (j 0).val = win0_1.index t (0 : Fin 2) * 64 + 1 * (j 0).val
    omega
  | ⟨1, _⟩ =>
    show win0_0.index t (1 : Fin 3) * 128 + 1 * s.val = s.val
    omega
  | ⟨2, _⟩ =>
    show win0_0.index t (2 : Fin 3) * 512 + 1 * (j 1).val = win0_1.index t (1 : Fin 2) * 512 + 1 * (j 1).val
    omega

/-- An entry of the output array lies in point `t`'s block iff each of its coordinates is in the block's range on that axis. -/
theorem mem_block (t : Fin cfg0.N) (i : S4096x512.Idx) :
    i ∈ ((cfg0.win 1).blk t).view.set
      ↔ ∀ a : Fin 2, win0_1.index t a * S64x512.size a ≤ (i a).val ∧ (i a).val < win0_1.index t a * S64x512.size a + S64x512.size a := by
  show i ∈ ((View.whole main_v0).slice (win0_1.rect t)).set ↔ _
  rw [View.set_slice_whole, Rect.mem_set_unit]
  exact Iff.rfl

/-- The 64 row blocks tile the 4096 rows: row `r` is in the block of point `r / 64`. -/
theorem covered (i : S4096x512.Idx) :
    ∃ t : Fin cfg0.N, (cfg0.win 1).flush t = true ∧ i ∈ ((cfg0.win 1).blk t).view.set := by
  have hi0 : (i 0).val < 4096 := (i 0).isLt
  have hi1 : (i 1).val < 512 := (i 1).isLt
  have hN : cfg0.N = 64 := N_0
  let t : Fin cfg0.N := ⟨(i 0).val / 64, by rw [hN]; omega⟩
  have ht : t.val = (i 0).val / 64 := rfl
  obtain ⟨e0, e1, e2, e3, e4⟩ := block_at t
  refine ⟨t, flush0_1 t, ?_⟩
  rw [mem_block]
  intro a
  match a with
  | ⟨0, _⟩ =>
    show win0_1.index t (0 : Fin 2) * 64 ≤ (i 0).val ∧ (i 0).val < win0_1.index t (0 : Fin 2) * 64 + 64
    omega
  | ⟨1, _⟩ =>
    show win0_1.index t (1 : Fin 2) * 512 ≤ (i 1).val ∧ (i 1).val < win0_1.index t (1 : Fin 2) * 512 + 512
    omega

/-- THE OUTPUT ARRAY after the run is the pooled argument. -/
theorem final (c : Dev nD) :
    (dats m 0 c).arrAt 1 cfg0.N = sentenceMean (B := 4096) (m ((c : Thread nD τ).loc main_arg0)) :=
  (dats m 0 c).arrAt_eq_of_cover 1 (sentenceMean (B := 4096) (V m c main_arg0)) (fun t _ => flushed_eq m c t) covered

/-- The kernel's run, read: every weakly fair execution ends with the result array at the pooled argument and the argument
    unchanged. -/
theorem run : θ_run defs (onTc (τ := τ) (main (F := Ideal))) ⟨m, fun _ => 0, ρ⟩ fun r => ∀ c : Dev nD,
      r.2.mem ((c : Thread nD τ).loc main_v0) = sentenceMean (B := 4096) (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (run_blocks m ρ)

end Cert.KernelIdeal.Pooled

end
-- ==== Proof.MeanReference.lean ====
/-
  The idealized reference's result, as the same function of its argument.

  The reference sums the whole array along the word axis from the initial value zero and divides by the broadcast of the
  word for 128. Read at an entry, the host's sum is the initial value — zero — plus the sum over the 128 words, so the quotient
  is the specification `sentenceMean` of the argument.
-/
import proofs.«123703_j42855183679779_1_alg».proof.Proof.Gen.ReferenceIdeal.Read
import proofs.«123703_j42855183679779_1_alg».proof.Proof.MeanSpec

noncomputable section

open Idealize.ShloMosaic Idealize.ShloMosaic.TcCoe Idealize.SL.Sem

namespace Cert.ReferenceIdeal.Pooled

open Cert.ReferenceIdeal Cert.ReferenceIdeal.Gen Cert.ReferenceIdeal.Read Cert.MeanPool

/-- The reference's last stage, at every entry, is the pooled argument. -/
theorem stage_eq (x : (⟨S4096x128x512, .f32⟩ : BufTy).Contents (Elt Ideal)) :
    val_main_v2 (F := Ideal) x = sentenceMean (B := 4096) x := by
  funext i
  rw [val_main_v2_apply, val_main_v0_apply, val_main_v1_apply, val_main_cst_0_apply, val_main_cst_apply]
  simp only [Ideal.hostDivf_def, Ideal.ofBits_def, Ideal.ofBits_zero_f32, zero_add]
  unfold sentenceMean
  refine congrArg (fun z => Ideal.div z (Ideal.ofBits .f32 0x43000000#32)) ?_
  refine Finset.sum_congr rfl fun s _ => congrArg x (funext fun a => ?_)
  match a with
  | ⟨0, _⟩ => rfl
  | ⟨1, _⟩ => rfl
  | ⟨2, _⟩ => rfl

end Cert.ReferenceIdeal.Pooled

end
-- ==== Proof.lean ====
/-
  Mean pooling over the word axis of a [4096, 128, 512] array: the kernel that pools 64 sentences per grid point against
  `jnp.mean(word_vecs, axis=1)`, equal entry by entry on the extended reals.

  Both idealized programs compute, at sentence `b` and coordinate `d`, the sum over the 128 words of `x[b, s, d]` divided by
  the value of the f32 word for 128 (`Cert.MeanPool.sentenceMean`): the kernel block by block, its 64 row blocks tiling the
  output (`Cert.KernelIdeal.Pooled.run`), the reference in one reduction of the whole array from the initial value zero
  (`Cert.ReferenceIdeal.Pooled.stage_eq`). A finite sum on the extended reals does not depend on how it is grouped, and
  both sides divide by the same word, so no finiteness of the input is used: the precondition is never opened.

  The three frames are the generated ones (the reference's is its run with the result dropped); the idealization rewrote
  nothing, so `preserves` is `True`.
-/
import proofs.«123703_j42855183679779_1_alg».proof.Defs
import proofs.«123703_j42855183679779_1_alg».proof.Proof.Gen.Kernel
import proofs.«123703_j42855183679779_1_alg».proof.Proof.Gen.Kernel.Skeleton
import proofs.«123703_j42855183679779_1_alg».proof.Proof.Gen.Kernel.Launch
import proofs.«123703_j42855183679779_1_alg».proof.Proof.Gen.Kernel.Points
import proofs.«123703_j42855183679779_1_alg».proof.Proof.Gen.Kernel.Frame
import proofs.«123703_j42855183679779_1_alg».proof.Proof.Gen.KernelIdeal
import proofs.«123703_j42855183679779_1_alg».proof.Proof.Gen.KernelIdeal.Skeleton
import proofs.«123703_j42855183679779_1_alg».proof.Proof.Gen.KernelIdeal.Launch
import proofs.«123703_j42855183679779_1_alg».proof.Proof.Gen.KernelIdeal.Points
import proofs.«123703_j42855183679779_1_alg».proof.Proof.Gen.KernelIdeal.Frame
import proofs.«123703_j42855183679779_1_alg».proof.Proof.Gen.ReferenceIdeal
import proofs.«123703_j42855183679779_1_alg».proof.Proof.Gen.Pre_finite_inputs
import proofs.«123703_j42855183679779_1_alg».proof.Proof.Gen.KernelIdeal.Value
import proofs.«123703_j42855183679779_1_alg».proof.Proof.Gen.ReferenceIdeal.Run
import proofs.«123703_j42855183679779_1_alg».proof.Proof.Gen.ReferenceIdeal.Read
import proofs.«123703_j42855183679779_1_alg».proof.Proof.MeanSpec
import proofs.«123703_j42855183679779_1_alg».proof.Proof.MeanKernel
import proofs.«123703_j42855183679779_1_alg».proof.Proof.MeanReference
import Idealize.ShloMosaic.Adequacy
import Idealize.ShloMosaic.Init

noncomputable section

namespace Cert.Proof

open Idealize.ShloMosaic Idealize.SL.Sem

section Claims

attribute [local instance] Cert.Kernel.Gen.facts Cert.KernelIdeal.Gen.facts Cert.ReferenceIdeal.Gen.facts
  Cert.Pre_finite_inputs.Gen.facts

/-- The word-level kernel runs and leaves its argument as it was: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument as it was: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the pooled argument (its 64 blocks tiling the output) and the
    reference's at its last stage of the same argument, which is the pooled argument too. -/
theorem algebraic : Cert.algebraic_KernelIdeal_ReferenceIdeal := by
  intro m ρ m' ρ' _ hagree
  refine ⟨fun c => Cert.MeanPool.sentenceMean (B := 4096) (m ((c.tc : Thread Cert.KernelIdeal.nD Cert.KernelIdeal.τ).loc Cert.KernelIdeal.main_arg0)),
    Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Pooled.stage_eq, hagree c]

end Claims

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
